-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x3 : Shape := ⟨2, ![131072, 3]⟩
abbrev S3x128 : Shape := ⟨2, ![3, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S131072x3 : S_.BroadcastsInDim S131072x3 (![] : Fin 0 → Fin S131072x3.rank)
  reducesTo_S131072x3_S_d0_1 : S131072x3.ReducesTo [0, 1] S_
  h_S_ : 0 < S_.numel
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S128x1 .f32) (main_arg8 : FVec F S1 .f32) (main_v33 : IVec S_ 1) : IVec S_ 1 :=
  let main_v34 : FVec F S128x1 .f32 := Host.absf main_arg7
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S131072x3 .f32) (main_arg1 : FVec F S3x128 .f32) (main_arg2 : FVec F S128 .f32) (main_arg3 : FVec F S128x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S131072x3 .f32 := Host.absf main_arg0
  let main_cst : FVec F S_ .f32 := constant S_ .f32 0x7F800000#32
  let main_v1 : FVec F S131072x3 .f32 := broadcastInDim S131072x3 ![] bcast_S_S131072x3 main_cst
  let main_v2 : IVec S131072x3 1 := cmpf .olt main_v0 main_v1
  let main_c : IVec S_ 1 := constantI S_ 1 1#1
  let main_v3 : IVec S_ 1 := (fun x v => Host.reduce IntOp.andi x v reducesTo_S131072x3_S_d0_1 h_S_) main_v2 main_c
  let main_v4 : FVec F S3x128 .f32 := Host.absf main_arg1
  let main_cst_0 : FVec F S_ .f32 := constant S_ .f32 0x7F800000#32
  let main_v5 : FVec F S3x128 .f32 := broadcastInDim S3x128 ![] bcast_S_S3x128 main_cst_0
  let main_v6 : IVec S3x128 1 := cmpf .olt main_v4 main_v5
  let main_c_1 : IVec S_ 1 := constantI S_ 1 1#1
  let main_v7 : IVec S_ 1 := (fun x v => Host.reduce IntOp.andi x v reducesTo_S3x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S131072x3 : Shape := ⟨2, ![131072, 3]⟩
abbrev S3x128 : Shape := ⟨2, ![3, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x128 : Shape := ⟨2, ![1, 128]⟩
abbrev S1x1 : Shape := ⟨2, ![1, 1]⟩
abbrev S131072x1 : Shape := ⟨2, ![131072, 1]⟩
abbrev S16384x3 : Shape := ⟨2, ![16384, 3]⟩
abbrev S16384x1 : Shape := ⟨2, ![16384, 1]⟩
abbrev S16384x128 : Shape := ⟨2, ![16384, 128]⟩

abbrev nBuf : Space → Nat
  | .hbm => 18
  | .vmem => 12
  | .smem => 0
  | _ => 0

abbrev bufTy : (tb : Table) → Fin (tcTables nBuf tb) → BufTy
  | .hbm, ⟨0, _⟩ => ⟨S131072x3, .f32⟩
  | .hbm, ⟨1, _⟩ => ⟨S3x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S3x128, .bf16⟩
  | .hbm, ⟨10, _⟩ => ⟨S128x128, .bf16⟩
  | .hbm, ⟨11, _⟩ => ⟨S128x128, .bf16⟩
  | .hbm, ⟨12, _⟩ => ⟨S128x1, .bf16⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S1x1, .f32⟩
  | .hbm, ⟨17, _⟩ => ⟨S131072x1, .f32⟩
  | .local _ .vmem, ⟨0, _⟩ => ⟨S16384x3, .f32⟩
  | .local _ .vmem, ⟨1, _⟩ => ⟨S16384x3, .f32⟩
  | .local _ .vmem, ⟨2, _⟩ => ⟨S3x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S128x1, .bf16⟩
  | .local _ .vmem, ⟨9, _⟩ => ⟨S1x1, .f32⟩
  | .local _ .vmem, ⟨10, _⟩ => ⟨S16384x1, .f32⟩
  | .local _ .vmem, ⟨11, _⟩ => ⟨S16384x1, .f32⟩
  | _, _ => ⟨S131072x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16384x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  shapeCasts_S128_S1x128 : S128.ShapeCasts S1x128
  shapeCasts_S1_S1x1 : S1.ShapeCasts S1x1
  inb_S16384x3_S16384x3_0_0 : ∀ a, (![0, 0] : Fin 2 → Nat) a + S16384x3.size a ≤ S16384x3.size a
  h_S16384x3 : 0 < S16384x3.numel
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16384x128 : S1x128.Broadcasts S16384x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S16384x1 : S1x1.Broadcasts S16384x1
  inb_S16384x1_S16384x1_0_0 : ∀ a, (![0, 0] : Fin 2 → Nat) a + S16384x1.size a ≤ S16384x1.size a
  h_S16384x1 : 0 < S16384x1.numel
  dot_S16384x3_S3x128_S16384x128_1_0_0_1_n_n_wf : DotDims.WF S16384x3 S3x128 S16384x128 [1] [0] [0] [1] [] []
  dot_S16384x128_S128x128_S16384x128_1_0_0_1_n_n_wf : DotDims.WF S16384x128 S128x128 S16384x128 [1] [0] [0] [1] [] []
  dot_S16384x128_S128x1_S16384x1_1_0_0_1_n_n_wf : DotDims.WF S16384x128 S128x1 S16384x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x3.size a ≤ S131072x3.size a
  hwx0_0 : ∀ i : grid0.Coords, EltTy.bits .f32 = 32 ∨ (Rect.block (s := S131072x3) S16384x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128.size a ≤ S3x128.size a
  hwx0_1 : ∀ i : grid0.Coords, EltTy.bits .bf16 = 32 ∨ (Rect.block (s := S3x128) S3x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S128x1.size a
  hwx0_7 : ∀ i : grid0.Coords, EltTy.bits .bf16 = 32 ∨ (Rect.block (s := S128x1) S128x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16384x1.size a ≤ S131072x1.size a
  hwx0_9 : ∀ i : grid0.Coords, EltTy.bits .f32 = 32 ∨ (Rect.block (s := S131072x1) S16384x1.size (cc0_transform_9 i) (hinb0_9 i)).WholeWords (EltTy.packing .f32)

variable [Facts₀]

def dot_S16384x3_S3x128_S16384x128_1_0_0_1_n_n : DotDims S16384x3 S3x128 S16384x128 where
  lhsContracting := [1]
  rhsContracting := [0]
  lhsNonContracting := [0]
  rhsNonContracting := [1]
  lhsBatch := []
  rhsBatch := []
  wf := dot_S16384x3_S3x128_S16384x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x1_S16384x1_1_0_0_1_n_n : DotDims S16384x128 S128x1 S16384x1 where
  lhsContracting := [1]
  rhsContracting := [0]
  lhsNonContracting := [0]
  rhsNonContracting := [1]
  lhsBatch := []
  rhsBatch := []
  wf := dot_S16384x128_S128x1_S16384x1_1_0_0_1_n_n_wf

abbrev win0_0 : Pipeline.Window sig grid0 :=
  Pipeline.Window.ofSpec (Memref.whole main_arg0) S16384x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S128x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S16384x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S131072x3 : Shape := ⟨2, ![131072, 3]⟩
abbrev S3x128 : Shape := ⟨2, ![3, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S131072x128 : Shape := ⟨2, ![131072, 128]⟩
abbrev S1x128 : Shape := ⟨2, ![1, 128]⟩
abbrev S131072x1 : Shape := ⟨2, ![131072, 1]⟩
abbrev S1x1 : Shape := ⟨2, ![1, 1]⟩

abbrev nBuf : Space → Nat
  | .hbm => 28
  | .vmem => 0
  | .smem => 0
  | _ => 0

abbrev bufTy : (tb : Table) → Fin (tcTables nBuf tb) → BufTy
  | .hbm, ⟨0, _⟩ => ⟨S131072x3, .f32⟩
  | .hbm, ⟨1, _⟩ => ⟨S3x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S131072x128, .f32⟩
  | .hbm, ⟨10, _⟩ => ⟨S1x128, .f32⟩
  | .hbm, ⟨11, _⟩ => ⟨S131072x128, .f32⟩
  | .hbm, ⟨12, _⟩ => ⟨S131072x128, .f32⟩
  | .hbm, ⟨13, _⟩ => ⟨S131072x128, .f32⟩
  | .hbm, ⟨14, _⟩ => ⟨S131072x128, .f32⟩
  | .hbm, ⟨15, _⟩ => ⟨S1x128, .f32⟩
  | .hbm, ⟨16, _⟩ => ⟨S131072x128, .f32⟩
  | .hbm, ⟨17, _⟩ => ⟨S131072x128, .f32⟩
  | .hbm, ⟨18, _⟩ => ⟨S131072x128, .f32⟩
  | .hbm, ⟨19, _⟩ => ⟨S131072x128, .f32⟩
  | .hbm, ⟨20, _⟩ => ⟨S1x128, .f32⟩
  | .hbm, ⟨21, _⟩ => ⟨S131072x128, .f32⟩
  | .hbm, ⟨22, _⟩ => ⟨S131072x128, .f32⟩
  | .hbm, ⟨23, _⟩ => ⟨S131072x128, .f32⟩
  | .hbm, ⟨24, _⟩ => ⟨S131072x1, .f32⟩
  | .hbm, ⟨25, _⟩ => ⟨S1x1, .f32⟩
  | .hbm, ⟨26, _⟩ => ⟨S131072x1, .f32⟩
  | .hbm, ⟨27, _⟩ => ⟨S131072x1, .f32⟩
  | _, _ => ⟨S131072x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  dot_S131072x3_S3x128_S131072x128_1_0_0_1_n_n_wf : DotDims.WF S131072x3 S3x128 S131072x128 [1] [0] [0] [1] [] []
  dot_S131072x128_S128x128_S131072x128_1_0_0_1_n_n_wf : DotDims.WF S131072x128 S128x128 S131072x128 [1] [0] [0] [1] [] []
  dot_S131072x128_S128x1_S131072x1_1_0_0_1_n_n_wf : DotDims.WF S131072x128 S128x1 S131072x1 [1] [0] [0] [1] [] []

variable [Facts₀]

def dot_S131072x3_S3x128_S131072x128_1_0_0_1_n_n : DotDims S131072x3 S3x128 S131072x128 where
  lhsContracting := [1]
  rhsContracting := [0]
  lhsNonContracting := [0]
  rhsNonContracting := [1]
  lhsBatch := []
  rhsBatch := []
  wf := dot_S131072x3_S3x128_S131072x128_1_0_0_1_n_n_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf
def dot_S131072x128_S128x1_S131072x1_1_0_0_1_n_n : DotDims S131072x128 S128x1 S131072x1 where
  lhsContracting := [1]
  rhsContracting := [0]
  lhsNonContracting := [0]
  rhsNonContracting := [1]
  lhsBatch := []
  rhsBatch := []
  wf := dot_S131072x128_S128x1_S131072x1_1_0_0_1_n_n_wf

class Facts : Prop extends Facts₀ where

variable [Facts]
-- ==== Proof.Network.lean ====
/-
  The function both programs compute: a coordinate network 3 → 128 → 128 → 128 → 1 with tanh after each of
  the three hidden affine maps, read ROW BY ROW over the extended reals.

  One row `x : Fin 3 → EReal` goes through
      h₁ j = tanh (Σ k, x k · W₁[k, j] + b₁ j)
      h₂ j = tanh (Σ k, h₁ k · W₂[k, j] + b₂ j)
      h₃ j = tanh (Σ k, h₂ k · W₃[k, j] + b₃ j)
      y    =        Σ k, h₃ k · W₄[k, 0] + b₄ 0,
  and the result array holds, at row `r`, the value `y` of row `r` of the input. Nothing in it mixes rows,
  which is why a kernel that walks the rows block by block and a reference that takes them all at once
  agree without any algebra: both are this function, the sums in the same shape.
-/
import Idealize.ShloMosaic.Lib.ValueIdx

noncomputable section

open scoped BigOperators

namespace Cert.Network

open Idealize.ShloMosaic Idealize.ShloMosaic.ValueIdx

/-- An affine map on one row: entry `j` of `h · W + b`, the sum over the contracted axis written out. -/
def affine {K N : ℕ} (W : (⟨2, ![K, N]⟩ : Shape).Idx → EReal) (b : Fin N → EReal) (h : Fin K → EReal) :
    Fin N → EReal :=
  fun j => (∑ k : Fin K, h k * W (ix2 k j)) + b j

/-- A hidden layer on one row: the affine map, then tanh entry by entry. -/
def hidden {K N : ℕ} (W : (⟨2, ![K, N]⟩ : Shape).Idx → EReal) (b : Fin N → EReal) (h : Fin K → EReal) :
    Fin N → EReal :=
  fun j => Ideal.tanh (affine W b h j)

/-- The whole network on one row: three hidden layers and the affine read-out. -/
def mlp (W1 : (⟨2, ![3, 128]⟩ : Shape).Idx → EReal) (b1 : Fin 128 → EReal)
    (W2 : (⟨2, ![128, 128]⟩ : Shape).Idx → EReal) (b2 : Fin 128 → EReal)
    (W3 : (⟨2, ![128, 128]⟩ : Shape).Idx → EReal) (b3 : Fin 128 → EReal)
    (W4 : (⟨2, ![128, 1]⟩ : Shape).Idx → EReal) (b4 : Fin 1 → EReal) (x : Fin 3 → EReal) : Fin 1 → EReal :=
  affine W4 b4 (hidden W3 b3 (hidden W2 b2 (hidden W1 b1 x)))

/-- The result array as ONE function of the nine argument arrays: at `(r, q)` the network's value on row `r`
    of the input. The biases arrive as rank-1 arrays. -/
def result (X : (⟨2, ![131072, 3]⟩ : Shape).Idx → EReal)
    (W1 : (⟨2, ![3, 128]⟩ : Shape).Idx → EReal) (B1 : (⟨1, ![128]⟩ : Shape).Idx → EReal)
    (W2 : (⟨2, ![128, 128]⟩ : Shape).Idx → EReal) (B2 : (⟨1, ![128]⟩ : Shape).Idx → EReal)
    (W3 : (⟨2, ![128, 128]⟩ : Shape).Idx → EReal) (B3 : (⟨1, ![128]⟩ : Shape).Idx → EReal)
    (W4 : (⟨2, ![128, 1]⟩ : Shape).Idx → EReal) (B4 : (⟨1, ![1]⟩ : Shape).Idx → EReal) :
    (⟨2, ![131072, 1]⟩ : Shape).Idx → EReal :=
  fun i => mlp W1 (fun j => B1 (ix1 j)) W2 (fun j => B2 (ix1 j)) W3 (fun j => B3 (ix1 j)) W4 (fun j => B4 (ix1 j))
    (fun k => X (ix2 (i 0) k)) (i 1)

/-- Two rows that agree entry by entry give the same hidden layer. -/
theorem hidden_congr {K N : ℕ} (W : (⟨2, ![K, N]⟩ : Shape).Idx → EReal) (b : Fin N → EReal)
    {h h' : Fin K → EReal} (e : ∀ k, h k = h' k) : hidden W b h = hidden W b h' := by
  rw [show h = h' from funext e]

end Cert.Network

end
-- ==== Proof.Reference.lean ====
/-
  The reference program is the network of `Network.lean`.

  The host program is nineteen operations: for each layer a `dot_general` contracting the activations' second axis
  with the weights' first, the bias broadcast first to one row and then over all rows, a sum, and (but for the last
  layer) `tanh`. Read at the index `(r, j)` each `dot_general` is `Σ k, lhs (r, k) · rhs (k, j)`, the doubly broadcast
  bias is `b j`, and the host's `tanh` is the extended reals' `tanh`; so layer by layer the stage at `(r, j)` is the
  hidden layer of row `r`, each layer's lemma feeding the next one under its sum.
-/
import proofs.«138992_g62079457296719_cont_9to1c4b_771_7_alg».proof.Proof.Gen.ReferenceIdeal.Read
import proofs.«138992_g62079457296719_cont_9to1c4b_771_7_alg».proof.Proof.Network

noncomputable section

open scoped BigOperators

namespace Cert.ReferenceIdeal.RefValue

open Cert.ReferenceIdeal Cert.ReferenceIdeal.Read Idealize.ShloMosaic Idealize.ShloMosaic.ValueIdx Cert.Network

/-! ## The operand indices of the four contractions and of the broadcasts, by coordinates -/

theorem lidx0 (r : Fin 131072) (j : Fin 128) (k : Fin 3) : lidx_main_v0 (ix2 r j) k = ix2 r k :=
  funext fun a => by match a with | ⟨0, _⟩ => rfl | ⟨1, _⟩ => rfl
theorem ridx0 (r : Fin 131072) (j : Fin 128) (k : Fin 3) : ridx_main_v0 (ix2 r j) k = ix2 k j :=
  funext fun a => by match a with | ⟨0, _⟩ => rfl | ⟨1, _⟩ => rfl
theorem lidx5 (r : Fin 131072) (j : Fin 128) (k : Fin 128) : lidx_main_v5 (ix2 r j) k = ix2 r k :=
  funext fun a => by match a with | ⟨0, _⟩ => rfl | ⟨1, _⟩ => rfl
theorem ridx5 (r : Fin 131072) (j : Fin 128) (k : Fin 128) : ridx_main_v5 (ix2 r j) k = ix2 k j :=
  funext fun a => by match a with | ⟨0, _⟩ => rfl | ⟨1, _⟩ => rfl
theorem lidx10 (r : Fin 131072) (j : Fin 128) (k : Fin 128) : lidx_main_v10 (ix2 r j) k = ix2 r k :=
  funext fun a => by match a with | ⟨0, _⟩ => rfl | ⟨1, _⟩ => rfl
theorem ridx10 (r : Fin 131072) (j : Fin 128) (k : Fin 128) : ridx_main_v10 (ix2 r j) k = ix2 k j :=
  funext fun a => by match a with | ⟨0, _⟩ => rfl | ⟨1, _⟩ => rfl
theorem lidx15 (r : Fin 131072) (q : Fin 1) (k : Fin 128) : lidx_main_v15 (ix2 r q) k = ix2 r k :=
  funext fun a => by match a with | ⟨0, _⟩ => rfl | ⟨1, _⟩ => rfl
theorem ridx15 (r : Fin 131072) (q : Fin 1) (k : Fin 128) : ridx_main_v15 (ix2 r q) k = ix2 k q :=
  funext fun a => by match a with | ⟨0, _⟩ => rfl | ⟨1, _⟩ => rfl

/-- A bias broadcast to one row and then to every row reads, at `(r, j)`, its entry `j`. -/
theorem bias1 (r : Fin 131072) (j : Fin 128) : idx_main_v1 (idx_main_v2 (ix2 r j)) = ix1 j :=
  funext fun a => by match a with | ⟨0, _⟩ => rfl
theorem bias6 (r : Fin 131072) (j : Fin 128) : idx_main_v6 (idx_main_v7 (ix2 r j)) = ix1 j :=
  funext fun a => by match a with | ⟨0, _⟩ => rfl
theorem bias11 (r : Fin 131072) (j : Fin 128) : idx_main_v11 (idx_main_v12 (ix2 r j)) = ix1 j :=
  funext fun a => by match a with | ⟨0, _⟩ => rfl
theorem bias16 (r : Fin 131072) (q : Fin 1) : idx_main_v16 (idx_main_v17 (ix2 r q)) = ix1 q :=
  funext fun a => by match a with | ⟨0, _⟩ => exact Fin.ext (by have := q.isLt; show 0 = q.val; omega)

/-! ## Layer by layer -/

variable (x0 : (⟨S131072x3, .f32⟩ : BufTy).Contents (Elt Ideal)) (x1 : (⟨S3x128, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x1, .f32⟩ : BufTy).Contents (Elt Ideal))
  (x8 : (⟨S1, .f32⟩ : BufTy).Contents (Elt Ideal))

/-- The first activation at `(r, j)` is the first hidden layer of input row `r`. -/
theorem act1_apply (r : Fin 131072) (j : Fin 128) :
    val_main_v4 (F := Ideal) x0 x1 x2 (ix2 r j)
      = hidden x1 (fun j => x2 (ix1 j)) (fun k => x0 (ix2 r k)) j := by
  rw [val_main_v4_apply, val_main_v3_apply, val_main_v0_apply, val_main_v2_apply, val_main_v1_apply]
  simp only [lidx0, ridx0, bias1]
  rfl

/-- The second activation at `(r, j)` is the second hidden layer over the first, of input row `r`. -/
theorem act2_apply (r : Fin 131072) (j : Fin 128) :
    val_main_v9 (F := Ideal) x0 x1 x2 x3 x4 (ix2 r j)
      = hidden x3 (fun j => x4 (ix1 j)) (hidden x1 (fun j => x2 (ix1 j)) (fun k => x0 (ix2 r k))) j := by
  rw [val_main_v9_apply, val_main_v8_apply, val_main_v5_apply, val_main_v7_apply, val_main_v6_apply]
  simp only [lidx5, ridx5, bias6, act1_apply]
  rfl

/-- The third activation likewise. -/
theorem act3_apply (r : Fin 131072) (j : Fin 128) :
    val_main_v14 (F := Ideal) x0 x1 x2 x3 x4 x5 x6 (ix2 r j)
      = hidden x5 (fun j => x6 (ix1 j)) (hidden x3 (fun j => x4 (ix1 j))
          (hidden x1 (fun j => x2 (ix1 j)) (fun k => x0 (ix2 r k)))) j := by
  rw [val_main_v14_apply, val_main_v13_apply, val_main_v10_apply, val_main_v12_apply, val_main_v11_apply]
  simp only [lidx10, ridx10, bias11, act2_apply]
  rfl

/-- The reference's result array is the network's result of the nine arguments. -/
theorem result_eq :
    val_main_v18 (F := Ideal) x0 x1 x2 x3 x4 x5 x6 x7 x8 = Network.result x0 x1 x2 x3 x4 x5 x6 x7 x8 := by
  funext i
  obtain ⟨r, q, rfl⟩ : ∃ (r : Fin 131072) (q : Fin 1), i = ix2 r q := ⟨i 0, i 1, eq_ix2 i⟩
  rw [val_main_v18_apply, val_main_v15_apply, val_main_v17_apply, val_main_v16_apply]
  simp only [lidx15, ridx15, bias16, act3_apply]
  rfl

end Cert.ReferenceIdeal.RefValue

end
-- ==== Proof.KernelMatmul.lean ====
/-
  The kernel body's three matrix products read at an index.

  Each `tpu.matmul` of the body contracts the left operand's second axis with the right operand's first and
  accumulates into a zero splat. Over the extended reals that is, at the output index `(p, j)`, the plain sum
  `Σ k, lhs (p, k) · rhs (k, j)` over the one contracted coordinate: the dot's own operand indices at `(p, j)` and
  contraction index `k` are `(p, k)` and `(k, j)`, axis by axis, and the contraction's index set is `Fin K` through
  the bijection that reads its one coordinate.
-/
import proofs.«138992_g62079457296719_cont_9to1c4b_771_7_alg».proof.Proof.Gen.KernelIdeal.Skeleton
import Idealize.ShloMosaic.Lib.ValueIdx
import Idealize.ShloMosaic.PureOps.Ideal.Laws

noncomputable section

open scoped BigOperators

namespace Cert.KernelIdeal.Contract

open Cert.KernelIdeal Cert.KernelIdeal.Gen Idealize.ShloMosaic Idealize.ShloMosaic.ValueIdx

/-! ## The first layer's contraction: a [16384, 3] block of rows against the [3, 128] weights. -/

theorem lhs_first_0 (i : S16384x128.Idx) (q : dot_S16384x3_S3x128_S16384x128_1_0_0_1_n_n.contr.Idx) :
    (dot_S16384x3_S3x128_S16384x128_1_0_0_1_n_n.lhsIdx i q 0).val = (i 0).val := by
  unfold DotDims.lhsIdx
  rw [dif_neg (show ¬(0 : Fin S16384x3.rank) ∈ dot_S16384x3_S3x128_S16384x128_1_0_0_1_n_n.lhsBatch by decide), dif_pos (show (0 : Fin S16384x3.rank) ∈ dot_S16384x3_S3x128_S16384x128_1_0_0_1_n_n.lhsNonContracting by decide)]
  rfl
theorem lhs_first_1 (i : S16384x128.Idx) (q : dot_S16384x3_S3x128_S16384x128_1_0_0_1_n_n.contr.Idx) :
    (dot_S16384x3_S3x128_S16384x128_1_0_0_1_n_n.lhsIdx i q 1).val = (q ⟨0, by decide⟩).val :=
  dot_S16384x3_S3x128_S16384x128_1_0_0_1_n_n.lhsIdx_val_of_single rfl i q
theorem rhs_first_0 (i : S16384x128.Idx) (q : dot_S16384x3_S3x128_S16384x128_1_0_0_1_n_n.contr.Idx) :
    (dot_S16384x3_S3x128_S16384x128_1_0_0_1_n_n.rhsIdx i q 0).val = (q ⟨0, by decide⟩).val :=
  dot_S16384x3_S3x128_S16384x128_1_0_0_1_n_n.rhsIdx_val_of_single rfl i q
theorem rhs_first_1 (i : S16384x128.Idx) (q : dot_S16384x3_S3x128_S16384x128_1_0_0_1_n_n.contr.Idx) :
    (dot_S16384x3_S3x128_S16384x128_1_0_0_1_n_n.rhsIdx i q 1).val = (i 1).val := by
  unfold DotDims.rhsIdx
  rw [dif_neg (show ¬(1 : Fin S3x128.rank) ∈ dot_S16384x3_S3x128_S16384x128_1_0_0_1_n_n.rhsBatch by decide), dif_pos (show (1 : Fin S3x128.rank) ∈ dot_S16384x3_S3x128_S16384x128_1_0_0_1_n_n.rhsNonContracting by decide)]
  rfl

/-- At `(p, j)` the product into the zero accumulator is `Σ k, lhs (p, k) · rhs (k, j)`. -/
theorem matmul_first_apply (lhs : FVec Ideal S16384x3 .bf16) (rhs : FVec Ideal S3x128 .bf16) (p : Fin 16384) (j : Fin 128) :
    matmul (F := Ideal) dot_S16384x3_S3x128_S16384x128_1_0_0_1_n_n none lhs rhs (constant S16384x128 .f32 0x00000000#32) (ix2 p j)
      = ∑ k : Fin 3, lhs (ix2 p k) * rhs (ix2 k j) := by
  simp only [matmul]
  rw [Ideal.matmul_constant_zero_apply, ← Equiv.sum_comp (contrEquiv1 dot_S16384x3_S3x128_S16384x128_1_0_0_1_n_n 3 rfl rfl).symm]
  refine Finset.sum_congr rfl fun k _ => ?_
  have hk := contrEquiv1_symm_val dot_S16384x3_S3x128_S16384x128_1_0_0_1_n_n 3 rfl rfl k
  have el : dot_S16384x3_S3x128_S16384x128_1_0_0_1_n_n.lhsIdx (ix2 p j) ((contrEquiv1 dot_S16384x3_S3x128_S16384x128_1_0_0_1_n_n 3 rfl rfl).symm k) = ix2 p k := funext fun a => Fin.ext (by
    match a with
    | ⟨0, _⟩ => exact lhs_first_0 _ _
    | ⟨1, _⟩ => exact (lhs_first_1 _ _).trans hk)
  have er : dot_S16384x3_S3x128_S16384x128_1_0_0_1_n_n.rhsIdx (ix2 p j) ((contrEquiv1 dot_S16384x3_S3x128_S16384x128_1_0_0_1_n_n 3 rfl rfl).symm k) = ix2 k j := funext fun a => Fin.ext (by
    match a with
    | ⟨0, _⟩ => exact (rhs_first_0 _ _).trans hk
    | ⟨1, _⟩ => exact rhs_first_1 _ _)
  rw [el, er]

/-! ## The second and third layers' contraction: [16384, 128] activations against [128, 128] weights. -/

theorem lhs_mid_0 (i : S16384x128.Idx) (q : dot_S16384x128_S128x128_S16384x128_1_0_0_1_n_n.contr.Idx) :
    (dot_S16384x128_S128x128_S16384x128_1_0_0_1_n_n.lhsIdx i q 0).val = (i 0).val := by
  unfold DotDims.lhsIdx
  rw [dif_neg (show ¬(0 : Fin S16384x128.rank) ∈ dot_S16384x128_S128x128_S16384x128_1_0_0_1_n_n.lhsBatch by decide), dif_pos (show (0 : Fin S16384x128.rank) ∈ dot_S16384x128_S128x128_S16384x128_1_0_0_1_n_n.lhsNonContracting by decide)]
  rfl
theorem lhs_mid_1 (i : S16384x128.Idx) (q : dot_S16384x128_S128x128_S16384x128_1_0_0_1_n_n.contr.Idx) :
    (dot_S16384x128_S128x128_S16384x128_1_0_0_1_n_n.lhsIdx i q 1).val = (q ⟨0, by decide⟩).val :=
  dot_S16384x128_S128x128_S16384x128_1_0_0_1_n_n.lhsIdx_val_of_single rfl i q
theorem rhs_mid_0 (i : S16384x128.Idx) (q : dot_S16384x128_S128x128_S16384x128_1_0_0_1_n_n.contr.Idx) :
    (dot_S16384x128_S128x128_S16384x128_1_0_0_1_n_n.rhsIdx i q 0).val = (q ⟨0, by decide⟩).val :=
  dot_S16384x128_S128x128_S16384x128_1_0_0_1_n_n.rhsIdx_val_of_single rfl i q
theorem rhs_mid_1 (i : S16384x128.Idx) (q : dot_S16384x128_S128x128_S16384x128_1_0_0_1_n_n.contr.Idx) :
    (dot_S16384x128_S128x128_S16384x128_1_0_0_1_n_n.rhsIdx i q 1).val = (i 1).val := by
  unfold DotDims.rhsIdx
  rw [dif_neg (show ¬(1 : Fin S128x128.rank) ∈ dot_S16384x128_S128x128_S16384x128_1_0_0_1_n_n.rhsBatch by decide), dif_pos (show (1 : Fin S128x128.rank) ∈ dot_S16384x128_S128x128_S16384x128_1_0_0_1_n_n.rhsNonContracting by decide)]
  rfl

/-- At `(p, j)` the product into the zero accumulator is `Σ k, lhs (p, k) · rhs (k, j)`. -/
theorem matmul_mid_apply (lhs : FVec Ideal S16384x128 .bf16) (rhs : FVec Ideal S128x128 .bf16) (p : Fin 16384) (j : Fin 128) :
    matmul (F := Ideal) dot_S16384x128_S128x128_S16384x128_1_0_0_1_n_n none lhs rhs (constant S16384x128 .f32 0x00000000#32) (ix2 p j)
      = ∑ k : Fin 128, lhs (ix2 p k) * rhs (ix2 k j) := by
  simp only [matmul]
  rw [Ideal.matmul_constant_zero_apply, ← Equiv.sum_comp (contrEquiv1 dot_S16384x128_S128x128_S16384x128_1_0_0_1_n_n 128 rfl rfl).symm]
  refine Finset.sum_congr rfl fun k _ => ?_
  have hk := contrEquiv1_symm_val dot_S16384x128_S128x128_S16384x128_1_0_0_1_n_n 128 rfl rfl k
  have el : dot_S16384x128_S128x128_S16384x128_1_0_0_1_n_n.lhsIdx (ix2 p j) ((contrEquiv1 dot_S16384x128_S128x128_S16384x128_1_0_0_1_n_n 128 rfl rfl).symm k) = ix2 p k := funext fun a => Fin.ext (by
    match a with
    | ⟨0, _⟩ => exact lhs_mid_0 _ _
    | ⟨1, _⟩ => exact (lhs_mid_1 _ _).trans hk)
  have er : dot_S16384x128_S128x128_S16384x128_1_0_0_1_n_n.rhsIdx (ix2 p j) ((contrEquiv1 dot_S16384x128_S128x128_S16384x128_1_0_0_1_n_n 128 rfl rfl).symm k) = ix2 k j := funext fun a => Fin.ext (by
    match a with
    | ⟨0, _⟩ => exact (rhs_mid_0 _ _).trans hk
    | ⟨1, _⟩ => exact rhs_mid_1 _ _)
  rw [el, er]

/-! ## The read-out's contraction: [16384, 128] activations against the [128, 1] weights. -/

theorem lhs_last_0 (i : S16384x1.Idx) (q : dot_S16384x128_S128x1_S16384x1_1_0_0_1_n_n.contr.Idx) :
    (dot_S16384x128_S128x1_S16384x1_1_0_0_1_n_n.lhsIdx i q 0).val = (i 0).val := by
  unfold DotDims.lhsIdx
  rw [dif_neg (show ¬(0 : Fin S16384x128.rank) ∈ dot_S16384x128_S128x1_S16384x1_1_0_0_1_n_n.lhsBatch by decide), dif_pos (show (0 : Fin S16384x128.rank) ∈ dot_S16384x128_S128x1_S16384x1_1_0_0_1_n_n.lhsNonContracting by decide)]
  rfl
theorem lhs_last_1 (i : S16384x1.Idx) (q : dot_S16384x128_S128x1_S16384x1_1_0_0_1_n_n.contr.Idx) :
    (dot_S16384x128_S128x1_S16384x1_1_0_0_1_n_n.lhsIdx i q 1).val = (q ⟨0, by decide⟩).val :=
  dot_S16384x128_S128x1_S16384x1_1_0_0_1_n_n.lhsIdx_val_of_single rfl i q
theorem rhs_last_0 (i : S16384x1.Idx) (q : dot_S16384x128_S128x1_S16384x1_1_0_0_1_n_n.contr.Idx) :
    (dot_S16384x128_S128x1_S16384x1_1_0_0_1_n_n.rhsIdx i q 0).val = (q ⟨0, by decide⟩).val :=
  dot_S16384x128_S128x1_S16384x1_1_0_0_1_n_n.rhsIdx_val_of_single rfl i q
theorem rhs_last_1 (i : S16384x1.Idx) (q : dot_S16384x128_S128x1_S16384x1_1_0_0_1_n_n.contr.Idx) :
    (dot_S16384x128_S128x1_S16384x1_1_0_0_1_n_n.rhsIdx i q 1).val = (i 1).val := by
  unfold DotDims.rhsIdx
  rw [dif_neg (show ¬(1 : Fin S128x1.rank) ∈ dot_S16384x128_S128x1_S16384x1_1_0_0_1_n_n.rhsBatch by decide), dif_pos (show (1 : Fin S128x1.rank) ∈ dot_S16384x128_S128x1_S16384x1_1_0_0_1_n_n.rhsNonContracting by decide)]
  rfl

/-- At `(p, j)` the product into the zero accumulator is `Σ k, lhs (p, k) · rhs (k, j)`. -/
theorem matmul_last_apply (lhs : FVec Ideal S16384x128 .bf16) (rhs : FVec Ideal S128x1 .bf16) (p : Fin 16384) (j : Fin 1) :
    matmul (F := Ideal) dot_S16384x128_S128x1_S16384x1_1_0_0_1_n_n none lhs rhs (constant S16384x1 .f32 0x00000000#32) (ix2 p j)
      = ∑ k : Fin 128, lhs (ix2 p k) * rhs (ix2 k j) := by
  simp only [matmul]
  rw [Ideal.matmul_constant_zero_apply, ← Equiv.sum_comp (contrEquiv1 dot_S16384x128_S128x1_S16384x1_1_0_0_1_n_n 128 rfl rfl).symm]
  refine Finset.sum_congr rfl fun k _ => ?_
  have hk := contrEquiv1_symm_val dot_S16384x128_S128x1_S16384x1_1_0_0_1_n_n 128 rfl rfl k
  have el : dot_S16384x128_S128x1_S16384x1_1_0_0_1_n_n.lhsIdx (ix2 p j) ((contrEquiv1 dot_S16384x128_S128x1_S16384x1_1_0_0_1_n_n 128 rfl rfl).symm k) = ix2 p k := funext fun a => Fin.ext (by
    match a with
    | ⟨0, _⟩ => exact lhs_last_0 _ _
    | ⟨1, _⟩ => exact (lhs_last_1 _ _).trans hk)
  have er : dot_S16384x128_S128x1_S16384x1_1_0_0_1_n_n.rhsIdx (ix2 p j) ((contrEquiv1 dot_S16384x128_S128x1_S16384x1_1_0_0_1_n_n 128 rfl rfl).symm k) = ix2 k j := funext fun a => Fin.ext (by
    match a with
    | ⟨0, _⟩ => exact (rhs_last_0 _ _).trans hk
    | ⟨1, _⟩ => exact rhs_last_1 _ _)
  rw [el, er]

end Cert.KernelIdeal.Contract

end
-- ==== Proof.KernelBlock.lean ====
/-
  What the kernel body computes on one block of rows, read at an index.

  The body loads a block of 16384 input rows and the whole of every weight and bias, and stores one value: the
  network applied to each row of the block. Read at `(p, q)`: the last product is `Σ k, h₃ (p, k) · W₄ (k, q)` plus
  the read-out bias, where `h₃ (p, k)` is tanh of the third layer's product at `(p, k)` plus its bias, and so on
  down to the block's row `p`. The changes of float format between the layers are the identity on the extended
  reals, the biases are one row broadcast over all rows, and the shape casts to the same shape are the identity.
-/
import proofs.«138992_g62079457296719_cont_9to1c4b_771_7_alg».proof.Proof.KernelMatmul
import proofs.«138992_g62079457296719_cont_9to1c4b_771_7_alg».proof.Proof.Network
import Idealize.ShloMosaic.Lib.ValueLayout
import Idealize.ShloMosaic.Lib.Pipeline.Value

noncomputable section

open scoped BigOperators

namespace Cert.KernelIdeal.Block

open Cert.KernelIdeal Cert.KernelIdeal.Gen Cert.KernelIdeal.Contract Idealize.ShloMosaic Idealize.ShloMosaic.ValueIdx
open Cert.Network

/-- The vector `tanh` at an index is the extended reals' `tanh` of the entry. -/
theorem tanh_apply {s : Shape} {φ : FTy} (x : FVec Ideal s φ) (i : s.Idx) : tanh x i = Ideal.tanh (x i) := rfl

/-- The first hidden layer of the body at `(p, j)`, as a function of the rows `a` it is given: the hidden layer
    of `Network.lean` on row `p`. -/
theorem hidden_first_apply (a : FVec Ideal S16384x3 .bf16) (w : Vec Ideal S3x128 .bf16) (b : Vec Ideal S1x128 .f32)
    (hw : S3x128.ShapeCasts S3x128) (hb : S1x128.ShapeCasts S1x128) (hbc : S1x128.Broadcasts S16384x128)
    (hlt : (FTy.bf16).bits < (FTy.f32).bits) (p : Fin 16384) (j : Fin 128) :
    (truncf .bf16 (tanh (addf (matmul (F := Ideal) dot_S16384x3_S3x128_S16384x128_1_0_0_1_n_n none a (shapeCast S3x128 w hw : FVec Ideal S3x128 .bf16)
          (constant S16384x128 .f32 0x00000000#32))
        (broadcastTo S16384x128 (shapeCast S1x128 b hb) hbc))) hlt : FVec Ideal S16384x128 .bf16) (ix2 p j)
      = hidden w (fun j => b (ix2 (0 : Fin 1) j)) (fun k => a (ix2 p k)) j := by
  rw [truncf_apply, tanh_apply, addf_apply, shapeCast_self, shapeCast_self, matmul_first_apply, broadcastTo_1b_ab_apply]
  rfl

/-- The second and third hidden layers of the body at `(p, j)`, likewise. -/
theorem hidden_mid_apply (a : FVec Ideal S16384x128 .bf16) (w : Vec Ideal S128x128 .bf16) (b : Vec Ideal S1x128 .f32)
    (hw : S128x128.ShapeCasts S128x128) (hb : S1x128.ShapeCasts S1x128) (hbc : S1x128.Broadcasts S16384x128)
    (hlt : (FTy.bf16).bits < (FTy.f32).bits) (p : Fin 16384) (j : Fin 128) :
    (truncf .bf16 (tanh (addf (matmul (F := Ideal) dot_S16384x128_S128x128_S16384x128_1_0_0_1_n_n none a (shapeCast S128x128 w hw : FVec Ideal S128x128 .bf16)
          (constant S16384x128 .f32 0x00000000#32))
        (broadcastTo S16384x128 (shapeCast S1x128 b hb) hbc))) hlt : FVec Ideal S16384x128 .bf16) (ix2 p j)
      = hidden w (fun j => b (ix2 (0 : Fin 1) j)) (fun k => a (ix2 p k)) j := by
  rw [truncf_apply, tanh_apply, addf_apply, shapeCast_self, shapeCast_self, matmul_mid_apply, broadcastTo_1b_ab_apply]
  rfl

/-- THE BODY'S ONE STORED VALUE at `(p, q)`: the network on row `p` of the loaded block of rows, with the loaded
    weights and the loaded one-row biases. -/
theorem payload_apply (v0 : Vec Ideal S16384x3 .f32) (v2 : Vec Ideal S3x128 .bf16) (v5 : Vec Ideal S1x128 .f32)
    (v11 : Vec Ideal S128x128 .bf16) (v14 : Vec Ideal S1x128 .f32) (v20 : Vec Ideal S128x128 .bf16)
    (v23 : Vec Ideal S1x128 .f32) (v29 : Vec Ideal S128x1 .bf16) (v32 : Vec Ideal S1x1 .f32)
    (p : Fin 16384) (q : Fin 1) :
    k0_pay1 (F := Ideal) v0 v2 v5 v11 v14 v20 v23 v29 v32 (ix2 p q)
      = mlp v2 (fun j => v5 (ix2 (0 : Fin 1) j)) v11 (fun j => v14 (ix2 (0 : Fin 1) j))
          v20 (fun j => v23 (ix2 (0 : Fin 1) j)) v29 (fun j => v32 (ix2 (0 : Fin 1) j)) (fun k => v0 (ix2 p k)) q := by
  unfold k0_pay1
  rw [addf_apply, matmul_last_apply, broadcastTo_1b_ab_apply]
  simp only [hidden_mid_apply, hidden_first_apply]
  simp only [shapeCast_self, truncf_apply]
  rfl

end Cert.KernelIdeal.Block

end
-- ==== Proof.KernelValue.lean ====
/-
  The kernel's result array after the run is the network's result of the argument arrays.

  The call walks the 131072 input rows in eight blocks of 16384; at point `t` the input window holds rows
  `16384·t … 16384·t + 16383`, every weight and bias window holds its whole array at every point, and the output
  window's block is rows `16384·t …` of the result. The weight arrays the windows stage are the arguments with
  their float format changed, which is the identity on the extended reals, and the bias arrays are the arguments
  recast from `[n]` to `[1, n]`. So what point `t` writes back is, at `(p, q)`, the network on input row
  `16384·t + p`: block `t` of the network's result array. The eight blocks cover the result array (row `r` lies in
  block `r / 16384`), so the array ends holding the network's result.
-/
import proofs.«138992_g62079457296719_cont_9to1c4b_771_7_alg».proof.Proof.Gen.KernelIdeal.Value
import proofs.«138992_g62079457296719_cont_9to1c4b_771_7_alg».proof.Proof.KernelBlock
import Idealize.ShloMosaic.Lib.StableHlo.Run

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.Network
open Idealize.ShloMosaic.Pipeline (Dat)

variable (m : (ℓ : Loc nD τ sig) → Buf (Elt Ideal) ℓ) (ρ : Dev nD → PrngReg)

/-! ## The arrays the windows stage, as the region finds them

A weight array is its argument with the float format changed (the identity here); a bias array is its argument
recast to one row. -/

theorem weights1_eq (c : Dev nD) :
    (V m c main_v0 : S3x128.Idx → EReal) = (m ((c : Thread nD τ).loc main_arg1) : S3x128.Idx → EReal) := by
  dsimp only [V, hostOps0]; after_results; rfl

theorem weights2_eq (c : Dev nD) :
    (V m c main_v1 : S128x128.Idx → EReal) = (m ((c : Thread nD τ).loc main_arg3) : S128x128.Idx → EReal) := by
  dsimp only [V, hostOps0]; after_results; rfl

theorem weights3_eq (c : Dev nD) :
    (V m c main_v2 : S128x128.Idx → EReal) = (m ((c : Thread nD τ).loc main_arg5) : S128x128.Idx → EReal) := by
  dsimp only [V, hostOps0]; after_results; rfl

theorem weights4_eq (c : Dev nD) :
    (V m c main_v3 : S128x1.Idx → EReal) = (m ((c : Thread nD τ).loc main_arg7) : S128x1.Idx → EReal) := by
  dsimp only [V, hostOps0]; after_results; rfl

theorem bias1_eq (c : Dev nD) :
    (V m c main_v4 : S1x128.Idx → EReal)
      = shapeCast S1x128 (m ((c : Thread nD τ).loc main_arg2) : S128.Idx → EReal) shapeCasts_S128_S1x128 := by
  dsimp only [V, hostOps0]; after_results; rfl

theorem bias2_eq (c : Dev nD) :
    (V m c main_v5 : S1x128.Idx → EReal)
      = shapeCast S1x128 (m ((c : Thread nD τ).loc main_arg4) : S128.Idx → EReal) shapeCasts_S128_S1x128 := by
  dsimp only [V, hostOps0]; after_results; rfl

theorem bias3_eq (c : Dev nD) :
    (V m c main_v6 : S1x128.Idx → EReal)
      = shapeCast S1x128 (m ((c : Thread nD τ).loc main_arg6) : S128.Idx → EReal) shapeCasts_S128_S1x128 := by
  dsimp only [V, hostOps0]; after_results; rfl

theorem bias4_eq (c : Dev nD) :
    (V m c main_v7 : S1x1.Idx → EReal)
      = shapeCast S1x1 (m ((c : Thread nD τ).loc main_arg8) : S1.Idx → EReal) shapeCasts_S1_S1x1 := by
  dsimp only [V, hostOps0]; after_results; rfl

/-! ## The windows' block indices over the grid -/

/-- The input rows' window and the output's move with the point along the rows; every other window stays at block
    `(0, 0)`. Decided over the eight points. -/
theorem idx_facts : ∀ t : Fin cfg0.N,
    win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## The blocks the body loads, read at an index -/

/-- The input window's block at point `t` holds, at `(p, k)`, the input at row `16384·t + p`. -/
theorem rows_apply (c : Dev nD) (t : Fin cfg0.N) (p : Fin 16384) (k : Fin 3) (r : Fin 131072)
    (hr : r.val = t.val * 16384 + p.val) :
    (iblk m c 0 t : Vec Ideal S16384x3 .f32) (ix2 p k)
      = (m ((c : Thread nD τ).loc main_arg0) : S131072x3.Idx → EReal) (ix2 r k) := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 2) * 16384 + 1 * p.val = r.val; rw [e0, hr]; omega
  | ⟨1, _⟩ => show win0_0.index t (1 : Fin 2) * 3 + 1 * k.val = k.val; rw [e1]; omega

/-- Window 1's block at every point is the whole of its weight argument. -/
theorem weights1_blk (c : Dev nD) (t : Fin cfg0.N) :
    (iblk m c 1 t : Vec Ideal S3x128 .bf16) = (m ((c : Thread nD τ).loc main_arg1) : S3x128.Idx → EReal) := by
  obtain ⟨-, -, -, -, e0, e1, -, -, -, -, -, -, -, -, -, -, -, -, -, -⟩ := idx_facts t
  funext y
  unfold iblk
  rw [View.read_apply]
  show V m c main_v0 _ = m (c.tc.loc main_arg1) y
  rw [weights1_eq]
  congr 1
  funext a
  apply Fin.ext
  match a with
  | ⟨0, _⟩ => show win0_1.index t (0 : Fin 2) * 3 + 1 * (y 0).val = (y 0).val; rw [e0]; omega
  | ⟨1, _⟩ => show win0_1.index t (1 : Fin 2) * 128 + 1 * (y 1).val = (y 1).val; rw [e1]; omega

/-- Window 3's block at every point is the whole of its weight argument. -/
theorem weights2_blk (c : Dev nD) (t : Fin cfg0.N) :
    (iblk m c 3 t : Vec Ideal S128x128 .bf16) = (m ((c : Thread nD τ).loc main_arg3) : S128x128.Idx → EReal) := by
  obtain ⟨-, -, -, -, -, -, -, -, e0, e1, -, -, -, -, -, -, -, -, -, -⟩ := idx_facts t
  funext y
  unfold iblk
  rw [View.read_apply]
  show V m c main_v1 _ = m (c.tc.loc main_arg3) y
  rw [weights2_eq]
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- Window 5's block at every point is the whole of its weight argument. -/
theorem weights3_blk (c : Dev nD) (t : Fin cfg0.N) :
    (iblk m c 5 t : Vec Ideal S128x128 .bf16) = (m ((c : Thread nD τ).loc main_arg5) : S128x128.Idx → EReal) := by
  obtain ⟨-, -, -, -, -, -, -, -, -, -, -, -, e0, e1, -, -, -, -, -, -⟩ := idx_facts t
  funext y
  unfold iblk
  rw [View.read_apply]
  show V m c main_v2 _ = m (c.tc.loc main_arg5) y
  rw [weights3_eq]
  congr 1
  funext a
  apply Fin.ext
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- Window 7's block at every point is the whole of its weight argument. -/
theorem weights4_blk (c : Dev nD) (t : Fin cfg0.N) :
    (iblk m c 7 t : Vec Ideal S128x1 .bf16) = (m ((c : Thread nD τ).loc main_arg7) : S128x1.Idx → EReal) := by
  obtain ⟨-, -, -, -, -, -, -, -, -, -, -, -, -, -, -, -, e0, e1, -, -⟩ := idx_facts t
  funext y
  unfold iblk
  rw [View.read_apply]
  show V m c main_v3 _ = m (c.tc.loc main_arg7) y
  rw [weights4_eq]
  congr 1
  funext a
  apply Fin.ext
  match a with
  | ⟨0, _⟩ => show win0_7.index t (0 : Fin 2) * 128 + 1 * (y 0).val = (y 0).val; rw [e0]; omega
  | ⟨1, _⟩ => show win0_7.index t (1 : Fin 2) * 1 + 1 * (y 1).val = (y 1).val; rw [e1]; omega

/-- Window 2's block at every point holds, in its one row, its bias argument. -/
theorem bias1_blk (c : Dev nD) (t : Fin cfg0.N) (j : Fin 128) :
    (iblk m c 2 t : Vec Ideal S1x128 .f32) (ix2 (0 : Fin 1) j)
      = (m ((c : Thread nD τ).loc main_arg2) : S128.Idx → EReal) (ix1 j) := by
  obtain ⟨-, -, -, -, -, -, e0, e1, -, -, -, -, -, -, -, -, -, -, -, -⟩ := idx_facts t
  unfold iblk
  rw [View.read_apply]
  show V m c main_v4 _ = m (c.tc.loc main_arg2) (ix1 j)
  rw [bias1_eq]
  refine Eq.trans (congrArg _ ?_) (shapeCast_a_1a_apply _ shapeCasts_S128_S1x128 (0 : Fin 1) j)
  funext a
  apply Fin.ext
  match a with
  | ⟨0, _⟩ => show win0_2.index t (0 : Fin 2) * 1 + 1 * 0 = 0; rw [e0]
  | ⟨1, _⟩ => show win0_2.index t (1 : Fin 2) * 128 + 1 * j.val = j.val; rw [e1]; omega

/-- Window 4's block at every point holds, in its one row, its bias argument. -/
theorem bias2_blk (c : Dev nD) (t : Fin cfg0.N) (j : Fin 128) :
    (iblk m c 4 t : Vec Ideal S1x128 .f32) (ix2 (0 : Fin 1) j)
      = (m ((c : Thread nD τ).loc main_arg4) : S128.Idx → EReal) (ix1 j) := by
  obtain ⟨-, -, -, -, -, -, -, -, -, -, e0, e1, -, -, -, -, -, -, -, -⟩ := idx_facts t
  unfold iblk
  rw [View.read_apply]
  show V m c main_v5 _ = m (c.tc.loc main_arg4) (ix1 j)
  rw [bias2_eq]
  refine Eq.trans (congrArg _ ?_) (shapeCast_a_1a_apply _ shapeCasts_S128_S1x128 (0 : Fin 1) j)
  funext a
  apply Fin.ext
  match a with
  | ⟨0, _⟩ => show win0_4.index t (0 : Fin 2) * 1 + 1 * 0 = 0; rw [e0]
  | ⟨1, _⟩ => show win0_4.index t (1 : Fin 2) * 128 + 1 * j.val = j.val; rw [e1]; omega

/-- Window 6's block at every point holds, in its one row, its bias argument. -/
theorem bias3_blk (c : Dev nD) (t : Fin cfg0.N) (j : Fin 128) :
    (iblk m c 6 t : Vec Ideal S1x128 .f32) (ix2 (0 : Fin 1) j)
      = (m ((c : Thread nD τ).loc main_arg6) : S128.Idx → EReal) (ix1 j) := by
  obtain ⟨-, -, -, -, -, -, -, -, -, -, -, -, -, -, e0, e1, -, -, -, -⟩ := idx_facts t
  unfold iblk
  rw [View.read_apply]
  show V m c main_v6 _ = m (c.tc.loc main_arg6) (ix1 j)
  rw [bias3_eq]
  refine Eq.trans (congrArg _ ?_) (shapeCast_a_1a_apply _ shapeCasts_S128_S1x128 (0 : Fin 1) j)
  funext a
  apply Fin.ext
  match a with
  | ⟨0, _⟩ => show win0_6.index t (0 : Fin 2) * 1 + 1 * 0 = 0; rw [e0]
  | ⟨1, _⟩ => show win0_6.index t (1 : Fin 2) * 128 + 1 * j.val = j.val; rw [e1]; omega

/-- Window 8's block at every point holds, in its one row, its bias argument. -/
theorem bias4_blk (c : Dev nD) (t : Fin cfg0.N) (j : Fin 1) :
    (iblk m c 8 t : Vec Ideal S1x1 .f32) (ix2 (0 : Fin 1) j)
      = (m ((c : Thread nD τ).loc main_arg8) : S1.Idx → EReal) (ix1 j) := by
  obtain ⟨-, -, -, -, -, -, -, -, -, -, -, -, -, -, -, -, -, -, e0, e1⟩ := idx_facts t
  unfold iblk
  rw [View.read_apply]
  show V m c main_v7 _ = m (c.tc.loc main_arg8) (ix1 j)
  rw [bias4_eq]
  refine Eq.trans (congrArg _ ?_) (shapeCast_a_1a_apply _ shapeCasts_S1_S1x1 (0 : Fin 1) j)
  funext a
  apply Fin.ext
  match a with
  | ⟨0, _⟩ => show win0_8.index t (0 : Fin 2) * 1 + 1 * 0 = 0; rw [e0]
  | ⟨1, _⟩ => show win0_8.index t (1 : Fin 2) * 1 + 1 * j.val = j.val; rw [e1]; omega

/-! ## What each point writes back, the cover, and the array after the run -/

theorem hz : (![0, 0] : Fin 2 → Nat) = fun _ => 0 := funext fun a => by fin_cases a <;> rfl

/-- The network's result of the nine argument arrays as launched. -/
abbrev netResult (c : Dev nD) : S131072x1.Idx → EReal :=
  Network.result (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg8))

/-- WHAT POINT `t` WRITES BACK is block `t` of the network's result array: at `(p, q)` the body's stored value is
    the network on row `p` of the loaded rows, which are input rows `16384·t + p`, with the whole weights and biases. -/
theorem flushed_eq (c : Dev nD) (t : Fin cfg0.N) :
    (dats m 0 c).flushed 9 t = ((cfg0.win 9).blk t).view.read (Elt Ideal) (netResult m c) := by
  obtain ⟨-, -, e0, e1, -⟩ := idx_facts t
  rw [Value.flushed9]
  unfold out0_9
  rw [View.canon_unit_zero hz]
  simp only [View.ld_unit_zero (S := S16384x3) hz, View.ld_unit_zero (S := S3x128) hz, View.ld_unit_zero (S := S1x128) hz,
    View.ld_unit_zero (S := S128x128) hz, View.ld_unit_zero (S := S128x1) hz, View.ld_unit_zero (S := S1x1) hz]
  funext y
  obtain ⟨p, q, rfl⟩ : ∃ (p : Fin 16384) (q : Fin 1), y = ix2 p q := ⟨y 0, y 1, eq_ix2 y⟩
  have hN : t.val < 8 := lt_of_lt_of_eq t.isLt N_0
  have hlt : t.val * 16384 + p.val < 131072 := by have := p.isLt; omega
  have hi : ((cfg0.win 9).blk t).view.emb (ix2 p q) = ix2 (⟨t.val * 16384 + p.val, hlt⟩ : Fin 131072) q := by
    funext a
    apply Fin.ext
    match a with
    | ⟨0, _⟩ => show win0_9.index t (0 : Fin 2) * 16384 + 1 * p.val = t.val * 16384 + p.val; rw [e0]; omega
    | ⟨1, _⟩ => show win0_9.index t (1 : Fin 2) * 1 + 1 * q.val = q.val; rw [e1]; omega
  show k0_pay1 (F := Ideal) (iblk m c 0 t) (iblk m c 1 t) (iblk m c 2 t) (iblk m c 3 t) (iblk m c 4 t) (iblk m c 5 t)
      (iblk m c 6 t) (iblk m c 7 t) (iblk m c 8 t) (ix2 p q)
    = netResult m c (((cfg0.win 9).blk t).view.emb (ix2 p q))
  rw [hi]
  refine (Block.payload_apply (iblk m c 0 t) (iblk m c 1 t) (iblk m c 2 t) (iblk m c 3 t) (iblk m c 4 t) (iblk m c 5 t)
      (iblk m c 6 t) (iblk m c 7 t) (iblk m c 8 t) p q).trans ?_
  have hb1 : (fun j => (iblk m c 2 t : Vec Ideal S1x128 .f32) (ix2 (0 : Fin 1) j))
      = fun j => (m ((c : Thread nD τ).loc main_arg2) : S128.Idx → EReal) (ix1 j) := funext (bias1_blk m c t)
  have hb2 : (fun j => (iblk m c 4 t : Vec Ideal S1x128 .f32) (ix2 (0 : Fin 1) j))
      = fun j => (m ((c : Thread nD τ).loc main_arg4) : S128.Idx → EReal) (ix1 j) := funext (bias2_blk m c t)
  have hb3 : (fun j => (iblk m c 6 t : Vec Ideal S1x128 .f32) (ix2 (0 : Fin 1) j))
      = fun j => (m ((c : Thread nD τ).loc main_arg6) : S128.Idx → EReal) (ix1 j) := funext (bias3_blk m c t)
  have hb4 : (fun j => (iblk m c 8 t : Vec Ideal S1x1 .f32) (ix2 (0 : Fin 1) j))
      = fun j => (m ((c : Thread nD τ).loc main_arg8) : S1.Idx → EReal) (ix1 j) := funext (bias4_blk m c t)
  have hx : (fun k => (iblk m c 0 t : Vec Ideal S16384x3 .f32) (ix2 p k))
      = fun k => (m ((c : Thread nD τ).loc main_arg0) : S131072x3.Idx → EReal)
          (ix2 (⟨t.val * 16384 + p.val, hlt⟩ : Fin 131072) k) :=
    funext fun k => rows_apply m c t p k ⟨t.val * 16384 + p.val, hlt⟩ rfl
  rw [weights1_blk m c t, weights2_blk m c t, weights3_blk m c t, weights4_blk m c t, hb1, hb2, hb3, hb4, hx]
  rfl

/-- Every row of the result array lies in the block of the point `r / 16384`. -/
theorem cover (c : Dev nD) (i : S131072x1.Idx) :
    ∃ t : Fin cfg0.N, (cfg0.win 9).flush t = true ∧ i ∈ ((cfg0.win 9).blk t).view.set := by
  have hi0 : (i 0).val < 131072 := (i 0).isLt
  have hi1 : (i 1).val < 1 := (i 1).isLt
  have hN : cfg0.N = 8 := N_0
  have ht : (i 0).val / 16384 < cfg0.N := by rw [hN]; omega
  obtain ⟨-, -, e0, e1, -⟩ := idx_facts ⟨(i 0).val / 16384, ht⟩
  have e0' : win0_9.index ⟨(i 0).val / 16384, ht⟩ (0 : Fin 2) = (i 0).val / 16384 := e0
  refine ⟨⟨(i 0).val / 16384, ht⟩, flush0_9 _, ?_⟩
  show i ∈ ((View.whole main_v8).slice (win0_9.rect ⟨(i 0).val / 16384, ht⟩)).set
  rw [View.set_slice_whole, Rect.mem_set_unit]
  intro a
  match a with
  | ⟨0, _⟩ =>
    show win0_9.index ⟨(i 0).val / 16384, ht⟩ (0 : Fin 2) * 16384 ≤ (i 0).val
      ∧ (i 0).val < win0_9.index ⟨(i 0).val / 16384, ht⟩ (0 : Fin 2) * 16384 + 16384
    rw [e0']; omega
  | ⟨1, _⟩ =>
    show win0_9.index ⟨(i 0).val / 16384, ht⟩ (1 : Fin 2) * 1 ≤ (i 1).val
      ∧ (i 1).val < win0_9.index ⟨(i 0).val / 16384, ht⟩ (1 : Fin 2) * 1 + 1
    rw [e1]; omega

/-- THE RESULT ARRAY after the run is the network's result of the arguments. -/
theorem final (c : Dev nD) : (dats m 0 c).arrAt 9 cfg0.N = netResult m c :=
  (dats m 0 c).arrAt_eq_of_cover 9 (netResult m c) (fun t _ => flushed_eq m c t) (cover c)

/-- The kernel's run, read: the result array at the network's result, the arguments unchanged. -/
theorem run : θ_run defs (onTc (τ := τ) (main (F := Ideal))) ⟨m, fun _ => 0, ρ⟩ fun r => ∀ c : Dev nD,
      r.2.mem ((c : Thread nD τ).loc main_v8) = netResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Whole

end
-- ==== Proof.lean ====
/-
  A coordinate network 3 → 128 → 128 → 128 → 1 (tanh after each hidden layer) over 131072 input rows: a kernel
  that walks the rows in eight blocks of 16384, keeping the weights resident and the three hidden activations in
  registers, against the plain `tanh (x · W + b)` chain of the reference.

  Over the extended reals both compute ONE function of the nine arguments (`Proof/Network.lean`): at row `r` the
  network's value on input row `r`. The kernel's changes of float format between the layers are the identity there;
  its matrix products into a zero accumulator and the reference's `dot_general`s are the same plain sums
  `Σ k, h (r, k) · W (k, j)` over the contracted coordinate; the kernel's `tanh` and the host's are the same
  `tanh`; and a bias broadcast over the rows reads the same entry on both sides. No law of arithmetic beyond that is
  used, so the precondition (finite inputs) is never opened.

  * `Proof/Reference.lean`: the reference's nineteen operations, read at an index layer by layer, are the network.
  * `Proof/KernelMatmul.lean`, `Proof/KernelBlock.lean`: the body's stored value at `(p, q)` is the network on row `p`
    of the block of rows it loaded.
  * `Proof/KernelValue.lean`: point `t`'s block of rows is input rows `16384·t …`, what it writes back is block `t` of
    the network's result, and the eight blocks cover the result array.
  The three frames are the generated ones (the reference's is its run with the result dropped), and the
  idealization rewrote nothing, so `preserves` is trivial.
-/
import proofs.«138992_g62079457296719_cont_9to1c4b_771_7_alg».proof.Defs
import proofs.«138992_g62079457296719_cont_9to1c4b_771_7_alg».proof.Proof.Gen.Kernel
import proofs.«138992_g62079457296719_cont_9to1c4b_771_7_alg».proof.Proof.Gen.Kernel.Skeleton
import proofs.«138992_g62079457296719_cont_9to1c4b_771_7_alg».proof.Proof.Gen.Kernel.Launch
import proofs.«138992_g62079457296719_cont_9to1c4b_771_7_alg».proof.Proof.Gen.Kernel.Points
import proofs.«138992_g62079457296719_cont_9to1c4b_771_7_alg».proof.Proof.Gen.Kernel.Frame
import proofs.«138992_g62079457296719_cont_9to1c4b_771_7_alg».proof.Proof.Gen.KernelIdeal
import proofs.«138992_g62079457296719_cont_9to1c4b_771_7_alg».proof.Proof.Gen.KernelIdeal.Skeleton
import proofs.«138992_g62079457296719_cont_9to1c4b_771_7_alg».proof.Proof.Gen.KernelIdeal.Launch
import proofs.«138992_g62079457296719_cont_9to1c4b_771_7_alg».proof.Proof.Gen.KernelIdeal.Points
import proofs.«138992_g62079457296719_cont_9to1c4b_771_7_alg».proof.Proof.Gen.KernelIdeal.Frame
import proofs.«138992_g62079457296719_cont_9to1c4b_771_7_alg».proof.Proof.Gen.ReferenceIdeal
import proofs.«138992_g62079457296719_cont_9to1c4b_771_7_alg».proof.Proof.Gen.Pre_finite_inputs
import proofs.«138992_g62079457296719_cont_9to1c4b_771_7_alg».proof.Proof.Gen.KernelIdeal.Value
import proofs.«138992_g62079457296719_cont_9to1c4b_771_7_alg».proof.Proof.Gen.ReferenceIdeal.Run
import proofs.«138992_g62079457296719_cont_9to1c4b_771_7_alg».proof.Proof.Gen.ReferenceIdeal.Read
import proofs.«138992_g62079457296719_cont_9to1c4b_771_7_alg».proof.Proof.Reference
import proofs.«138992_g62079457296719_cont_9to1c4b_771_7_alg».proof.Proof.KernelValue
import Idealize.ShloMosaic.Adequacy
import Idealize.ShloMosaic.Init

noncomputable section

namespace Cert.Proof

open Idealize.ShloMosaic Idealize.SL.Sem

/-- The kernel as printed runs, its arguments unchanged: the generated frame. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the nine arguments the kernel's result array ends at the network's result of them
    (`KernelValue.run`) and the reference's at its nineteen operations' term, which is the same network
    (`Reference.result_eq`). -/
theorem algebraic : Cert.algebraic_KernelIdeal_ReferenceIdeal := by
  intro m ρ m' ρ' _ hagree
  refine ⟨fun c => Cert.KernelIdeal.Whole.netResult m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [a0, a1, a2, a3, a4, a5, a6, a7, a8]
  exact (Cert.ReferenceIdeal.Read.val_main_v18_eq (F := Ideal) _ _ _ _ _ _ _ _ _).trans
    (Cert.ReferenceIdeal.RefValue.result_eq _ _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
